-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32 .f32) (main_arg9 : FVec F S1x32 .f32) (main_arg10 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg9
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S32x128 .f32) (main_arg8 : FVec F S32 .f32) (main_arg9 : FVec F S1x32 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : IVec S2x800000 32) (main_arg2 : FVec F S256x256 .f32) (main_arg3 : FVec F S256 .f32) (main_arg4 : FVec F S256x256 .f32) (main_arg5 : FVec F S128x256 .f32) (main_arg6 : FVec F S128 .f32) (main_arg7 : FVec F S32x128 .f32) (main_arg8 : FVec F S32 .f32) (main_arg9 : FVec F S1x32 .f32) (main_arg10 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S100000x1 : Shape := ⟨2, ![100000, 1]⟩
abbrev S256x128 : Shape := ⟨2, ![256, 128]⟩
abbrev S128x32 : Shape := ⟨2, ![128, 32]⟩
abbrev S32x1 : Shape := ⟨2, ![32, 1]⟩
abbrev S1x256 : Shape := ⟨2, ![1, 256]⟩
abbrev S1x128 : Shape := ⟨2, ![1, 128]⟩
abbrev S1x1 : Shape := ⟨2, ![1, 1]⟩
abbrev S2000x256 : Shape := ⟨2, ![2000, 256]⟩
abbrev S2000x1 : Shape := ⟨2, ![2000, 1]⟩
abbrev S2000x128 : Shape := ⟨2, ![2000, 128]⟩
abbrev S2000x32 : Shape := ⟨2, ![2000, 32]⟩

abbrev nBuf : Space → Nat
  | .hbm => 55
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S128x256, .f32⟩
  | .hbm, ⟨6, _⟩ => ⟨S128, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S100000x256, .f32⟩
  | .hbm, ⟨26, _⟩ => ⟨S800000x1, .i32⟩
  | .hbm, ⟨27, _⟩ => ⟨S100000x256, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S256x256, .f32⟩
  | .hbm, ⟨41, _⟩ => ⟨S256x256, .bf16⟩
  | .hbm, ⟨42, _⟩ => ⟨S256x256, .f32⟩
  | .hbm, ⟨43, _⟩ => ⟨S256x256, .bf16⟩
  | .hbm, ⟨44, _⟩ => ⟨S256x128, .f32⟩
  | .hbm, ⟨45, _⟩ => ⟨S256x128, .bf16⟩
  | .hbm, ⟨46, _⟩ => ⟨S128x32, .f32⟩
  | .hbm, ⟨47, _⟩ => ⟨S128x32, .bf16⟩
  | .hbm, ⟨48, _⟩ => ⟨S32x1, .f32⟩
  | .hbm, ⟨49, _⟩ => ⟨S32x1, .bf16⟩
  | .hbm, ⟨50, _⟩ => ⟨S1x256, .f32⟩
  | .hbm, ⟨51, _⟩ => ⟨S1x128, .f32⟩
  | .hbm, ⟨52, _⟩ => ⟨S1x32, .f32⟩
  | .hbm, ⟨53, _⟩ => ⟨S1x1, .f32⟩
  | .hbm, ⟨54, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S256x128, .bf16⟩
  | .local _ .vmem, ⟨8, _⟩ => ⟨S1x128, .f32⟩
  | .local _ .vmem, ⟨9, _⟩ => ⟨S128x32, .bf16⟩
  | .local _ .vmem, ⟨10, _⟩ => ⟨S1x32, .f32⟩
  | .local _ .vmem, ⟨11, _⟩ => ⟨S32x1, .bf16⟩
  | .local _ .vmem, ⟨12, _⟩ => ⟨S1x1, .f32⟩
  | .local _ .vmem, ⟨13, _⟩ => ⟨S2000x1, .f32⟩
  | .local _ .vmem, ⟨14, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bitsLt_bf16_f32 : FTy.bits .bf16 < FTy.bits .f32
  transposes_S128x256_S256x128_1_0 : S128x256.Transposes [1, 0] S256x128
  transposes_S32x128_S128x32_1_0 : S32x128.Transposes [1, 0] S128x32
  transposes_S1x32_S32x1_1_0 : S1x32.Transposes [1, 0] S32x1
  shapeCasts_S256_S1x256 : S256.ShapeCasts S1x256
  shapeCasts_S128_S1x128 : S128.ShapeCasts S1x128
  shapeCasts_S32_S1x32 : S32.ShapeCasts S1x32
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x32_S2000x32_1_0_0_1_n_n_wf : DotDims.WF S2000x128 S128x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S128x32.size a
  hwx0_7 : ∀ i : grid0.Coords, EltTy.bits .bf16 = 32 ∨ (Rect.block (s := S128x32) S128x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .bf16 = 32 ∨ (Rect.block (s := S32x1) S32x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x1.size a ≤ S100000x1.size a
  hwx0_11 : ∀ i : grid0.Coords, EltTy.bits .f32 = 32 ∨ (Rect.block (s := S100000x1) S2000x1.size (cc0_transform_11 i) (hinb0_11 i)).WholeWords (EltTy.packing .f32)

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S128x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S2000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S32x128 : Shape := ⟨2, ![32, 128]⟩
abbrev S32 : Shape := ⟨1, ![32]⟩
abbrev S1x32 : Shape := ⟨2, ![1, 32]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S100000x1 : Shape := ⟨2, ![100000, 1]⟩
abbrev S1x256 : Shape := ⟨2, ![1, 256]⟩
abbrev S256x128 : Shape := ⟨2, ![256, 128]⟩
abbrev S100000x128 : Shape := ⟨2, ![100000, 128]⟩
abbrev S1x128 : Shape := ⟨2, ![1, 128]⟩
abbrev S128x32 : Shape := ⟨2, ![128, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S128x256, .f32⟩
  | .hbm, ⟨6, _⟩ => ⟨S128, .f32⟩
  | .hbm, ⟨7, _⟩ => ⟨S32x128, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S100000x256, .f32⟩
  | .hbm, ⟨26, _⟩ => ⟨S800000x1, .i32⟩
  | .hbm, ⟨27, _⟩ => ⟨S100000x256, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S100000, .f32⟩
  | .hbm, ⟨32, _⟩ => ⟨S800000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S256x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S256x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .f32⟩
  | .hbm, ⟨51, _⟩ => ⟨S100000x256, .f32⟩
  | .hbm, ⟨52, _⟩ => ⟨S256x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S128x32, .f32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S32x1, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_cst : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.LibDenseRow.lean ====
/-
  A dense layer written with vector operations, read at one entry at the ideal values.

  The layer is a plain `M × K` by `K × N` matrix product into the zero accumulator, plus a `1 × N` row of biases
  broadcast down the `M` rows. At entry `(p, j)` it is the sum over `k : Fin K` of `l (p, k) · r (k, j)`, plus
  `b (0, j)`. Also here: the larger of a vector and a splat scalar at an entry, and a format change or a shape cast to
  the same shape at an entry. Stated for any extents.
-/
import Idealize.ShloMosaic.PureOps.Ideal.Laws
import Idealize.ShloMosaic.Lib.ValueIdx
import Idealize.ShloMosaic.Lib.Pipeline.Value
import proofs.«108088_j23192823398472_1_alg».proof.Proof.LibPlainDot

noncomputable section

open scoped BigOperators

namespace Idealize.ShloMosaic.DenseRow

open Idealize.ShloMosaic Idealize.ShloMosaic.ValueIdx

variable (M K N : Nat)

/-- A `1 × N` row broadcast down `M` rows, read at `(p, j)`, is the row's entry `j`. -/
theorem bias_apply {α : Type} (b : (⟨2, ![1, N]⟩ : Shape).Idx → α) (hb : (⟨2, ![1, N]⟩ : Shape).Broadcasts ⟨2, ![M, N]⟩)
    (p : Fin M) (j : Fin N) : broadcastTo ⟨2, ![M, N]⟩ b hb (ix2 p j) = b (ix2 0 j) := by
  refine broadcastTo_apply b hb (ix2 p j) (ix2 0 j) fun a => ?_
  match a with
  | ⟨0, _⟩ => exact (if_pos rfl).symm
  | ⟨1, _⟩ =>
    show j.val = if N = 1 then 0 else j.val
    split
    · have := j.isLt; omega
    · rfl

/-- The plain product into the zero accumulator plus the broadcast bias row, at `(p, j)`. -/
theorem dense_apply {φ₁ φ₂ : FTy} (prec : Option ContractPrecision) (l : FVec Ideal ⟨2, ![M, K]⟩ φ₁)
    (r : FVec Ideal ⟨2, ![K, N]⟩ φ₂) (b : FVec Ideal ⟨2, ![1, N]⟩ .f32)
    (hb : (⟨2, ![1, N]⟩ : Shape).Broadcasts ⟨2, ![M, N]⟩) (p : Fin M) (j : Fin N) :
    addf (matmul (DotDims.plain M K N) prec l r (constant ⟨2, ![M, N]⟩ .f32 0x00000000#32)) (broadcastTo ⟨2, ![M, N]⟩ b hb) (ix2 p j)
      = (∑ k : Fin K, l (ix2 p k) * r (ix2 k j)) + b (ix2 0 j) := by
  rw [addf_apply, PlainDot.matmul_zero_apply, bias_apply]
  rfl

end Idealize.ShloMosaic.DenseRow

end
-- ==== Proof.NodeSpec.lean ====
/-
  One node of the graph layer followed by the three dense layers, as a function of two rows of numbers.

  A node carries two rows of 256 extended reals: `mr`, the mean of its in-neighbours' features, and `xr`, its own
  features. The layer mixes them, `relu ((mr · Wlᵀ + bl) + xr · Wrᵀ) + xr`, and three dense layers follow, of widths
  128, 32 and 1, the first two through `relu`. Every weight matrix is given as `w j k`: the weight of input
  coordinate `k` in output coordinate `j`. The additions are associated exactly as written here; nothing below
  uses more of the extended reals than that.

  `nodeOut` is that number for one node; `G` is the column of them over the 100000 nodes, row `r` of the mean
  array and of the feature array being node `r`'s two rows.
-/
import Idealize.ShloMosaic.PureOps.Ideal
import Idealize.ShloMosaic.Lib.ValueIdx

noncomputable section

open scoped BigOperators

namespace Cert.NodeSpec

open Idealize.ShloMosaic Idealize.ShloMosaic.ValueIdx

/-- The larger of `x` and the number the all-zero 32-bit float pattern denotes. -/
def relu (x : EReal) : EReal := max x (Ideal.ofBits .f32 0x00000000#32)

/-- Output coordinate `j` of a dense layer: the inner product of the input row with row `j` of the weights, then the
    bias added on the right. -/
def dense {K N : Nat} (h : Fin K → EReal) (w : Fin N → Fin K → EReal) (b : Fin N → EReal) (j : Fin N) : EReal :=
  (∑ k : Fin K, h k * w j k) + b j

/-- Coordinate `j` of the graph layer's output row: the biased product of the neighbour mean, plus the product of the
    node's own row, through `relu`, plus the node's own coordinate. -/
def mix (mr xr : Fin 256 → EReal) (wl : Fin 256 → Fin 256 → EReal) (bl : Fin 256 → EReal)
    (wr : Fin 256 → Fin 256 → EReal) (j : Fin 256) : EReal :=
  relu (dense mr wl bl j + ∑ k : Fin 256, xr k * wr j k) + xr j

/-- The node's final number: the graph layer, then 256 → 128 → 32 through `relu`, then 32 → 1. -/
def nodeOut (mr xr : Fin 256 → EReal) (wl : Fin 256 → Fin 256 → EReal) (bl : Fin 256 → EReal)
    (wr : Fin 256 → Fin 256 → EReal) (w1 : Fin 128 → Fin 256 → EReal) (b1 : Fin 128 → EReal)
    (w2 : Fin 32 → Fin 128 → EReal) (b2 : Fin 32 → EReal) (w3 : Fin 1 → Fin 32 → EReal) (b3 : Fin 1 → EReal) : EReal :=
  dense (fun j => relu (dense (fun j => relu (dense (mix mr xr wl bl wr) w1 b1 j)) w2 b2 j)) w3 b3 0

/-- The whole result column: entry `(r, 0)` is `nodeOut` of row `r` of the mean array and row `r` of the features,
    with the weight matrices and biases read entry by entry. -/
def G (mean x : (⟨2, ![100000, 256]⟩ : Shape).Idx → EReal) (Wl : (⟨2, ![256, 256]⟩ : Shape).Idx → EReal)
    (bl : (⟨1, ![256]⟩ : Shape).Idx → EReal) (Wr : (⟨2, ![256, 256]⟩ : Shape).Idx → EReal)
    (W1 : (⟨2, ![128, 256]⟩ : Shape).Idx → EReal) (b1 : (⟨1, ![128]⟩ : Shape).Idx → EReal)
    (W2 : (⟨2, ![32, 128]⟩ : Shape).Idx → EReal) (b2 : (⟨1, ![32]⟩ : Shape).Idx → EReal)
    (W3 : (⟨2, ![1, 32]⟩ : Shape).Idx → EReal) (b3 : (⟨1, ![1]⟩ : Shape).Idx → EReal) :
    (⟨2, ![100000, 1]⟩ : Shape).Idx → EReal :=
  fun i => nodeOut (fun k => mean (ix2 (i 0) k)) (fun k => x (ix2 (i 0) k)) (fun j k => Wl (ix2 j k)) (fun j => bl (ix1 j))
    (fun j k => Wr (ix2 j k)) (fun j k => W1 (ix2 j k)) (fun j => b1 (ix1 j)) (fun j k => W2 (ix2 j k)) (fun j => b2 (ix1 j))
    (fun j k => W3 (ix2 j k)) (fun j => b3 (ix1 j))

/-- The same column from the arrays in the layout the kernel region reads them in: the weight matrices transposed
    (entry `(k, j)` the weight of input `k` in output `j`), each bias a one-row matrix. -/
def regionOut (A0 A1 : (⟨2, ![100000, 256]⟩ : Shape).Idx → EReal) (A2 : (⟨2, ![256, 256]⟩ : Shape).Idx → EReal)
    (A3 : (⟨2, ![1, 256]⟩ : Shape).Idx → EReal) (A4 : (⟨2, ![256, 256]⟩ : Shape).Idx → EReal)
    (A5 : (⟨2, ![256, 128]⟩ : Shape).Idx → EReal) (A6 : (⟨2, ![1, 128]⟩ : Shape).Idx → EReal)
    (A7 : (⟨2, ![128, 32]⟩ : Shape).Idx → EReal) (A8 : (⟨2, ![1, 32]⟩ : Shape).Idx → EReal)
    (A9 : (⟨2, ![32, 1]⟩ : Shape).Idx → EReal) (A10 : (⟨2, ![1, 1]⟩ : Shape).Idx → EReal) :
    (⟨2, ![100000, 1]⟩ : Shape).Idx → EReal :=
  fun i => nodeOut (fun k => A0 (ix2 (i 0) k)) (fun k => A1 (ix2 (i 0) k)) (fun j k => A2 (ix2 k j)) (fun j => A3 (ix2 0 j))
    (fun j k => A4 (ix2 k j)) (fun j k => A5 (ix2 k j)) (fun j => A6 (ix2 0 j)) (fun j k => A7 (ix2 k j)) (fun j => A8 (ix2 0 j))
    (fun j k => A9 (ix2 k j)) (fun j => A10 (ix2 0 j))

end Cert.NodeSpec

end
-- ==== Proof.BodyRow.lean ====
/-
  The kernel body's stored value, one entry at a time, at the ideal values.

  The body loads a 2000 × 256 block of neighbour means and the matching block of node features, the five weight
  matrices already transposed (so that entry `(k, j)` is the weight of input `k` in output `j`) and the four bias
  rows, and stores a 2000 × 1 block. Its matrix products are plain products into the zero accumulator, its format
  changes are the identity on extended reals, and every other operation acts entry by entry. So entry `(p, 0)` of the
  stored block is `NodeSpec.nodeOut` of row `p` of the two feature blocks.
-/
import proofs.«108088_j23192823398472_1_alg».proof.Proof.Gen.KernelIdeal.Skeleton
import proofs.«108088_j23192823398472_1_alg».proof.Proof.LibDenseRow
import proofs.«108088_j23192823398472_1_alg».proof.Proof.NodeSpec

noncomputable section

open scoped BigOperators

namespace Cert.KernelIdeal.Body

open Cert.KernelIdeal Cert.KernelIdeal.Gen Idealize.ShloMosaic Idealize.ShloMosaic.ValueIdx Cert.NodeSpec

/-! ## The four products and the four bias rows at an entry -/

theorem prod256 (l : FVec Ideal S2000x256 .bf16) (r : FVec Ideal S256x256 .bf16) (p : Fin 2000) (j : Fin 256) :
    matmul dot_S2000x256_S256x256_S2000x256_1_0_0_1_n_n none l r (constant S2000x256 .f32 0x00000000#32) (ix2 p j)
      = ∑ k : Fin 256, l (ix2 p k) * r (ix2 k j) :=
  PlainDot.matmul_zero_apply 2000 256 256 none l r (ix2 p j)

theorem prod128 (l : FVec Ideal S2000x256 .bf16) (r : FVec Ideal S256x128 .bf16) (p : Fin 2000) (j : Fin 128) :
    matmul dot_S2000x256_S256x128_S2000x128_1_0_0_1_n_n none l r (constant S2000x128 .f32 0x00000000#32) (ix2 p j)
      = ∑ k : Fin 256, l (ix2 p k) * r (ix2 k j) :=
  PlainDot.matmul_zero_apply 2000 256 128 none l r (ix2 p j)

theorem prod32 (l : FVec Ideal S2000x128 .bf16) (r : FVec Ideal S128x32 .bf16) (p : Fin 2000) (j : Fin 32) :
    matmul dot_S2000x128_S128x32_S2000x32_1_0_0_1_n_n none l r (constant S2000x32 .f32 0x00000000#32) (ix2 p j)
      = ∑ k : Fin 128, l (ix2 p k) * r (ix2 k j) :=
  PlainDot.matmul_zero_apply 2000 128 32 none l r (ix2 p j)

theorem prod1 (l : FVec Ideal S2000x32 .bf16) (r : FVec Ideal S32x1 .bf16) (p : Fin 2000) (j : Fin 1) :
    matmul dot_S2000x32_S32x1_S2000x1_1_0_0_1_n_n none l r (constant S2000x1 .f32 0x00000000#32) (ix2 p j)
      = ∑ k : Fin 32, l (ix2 p k) * r (ix2 k j) :=
  PlainDot.matmul_zero_apply 2000 32 1 none l r (ix2 p j)

theorem row256 (b : FVec Ideal S1x256 .f32) (p : Fin 2000) (j : Fin 256) :
    broadcastTo S2000x256 b broadcasts_S1x256_S2000x256 (ix2 p j) = b (ix2 0 j) :=
  DenseRow.bias_apply 2000 256 b broadcasts_S1x256_S2000x256 p j

theorem row128 (b : FVec Ideal S1x128 .f32) (p : Fin 2000) (j : Fin 128) :
    broadcastTo S2000x128 b broadcasts_S1x128_S2000x128 (ix2 p j) = b (ix2 0 j) :=
  DenseRow.bias_apply 2000 128 b broadcasts_S1x128_S2000x128 p j

theorem row32 (b : FVec Ideal S1x32 .f32) (p : Fin 2000) (j : Fin 32) :
    broadcastTo S2000x32 b broadcasts_S1x32_S2000x32 (ix2 p j) = b (ix2 0 j) :=
  DenseRow.bias_apply 2000 32 b broadcasts_S1x32_S2000x32 p j

theorem row1 (b : FVec Ideal S1x1 .f32) (p : Fin 2000) (j : Fin 1) :
    broadcastTo S2000x1 b broadcasts_S1x1_S2000x1 (ix2 p j) = b (ix2 0 j) :=
  DenseRow.bias_apply 2000 1 b broadcasts_S1x1_S2000x1 p j

/-! ## The stored block at an entry -/

/-- Entry `(p, 0)` of what the body stores is the node function of row `p` of the mean block `v0` and of the
    feature block `v3`, the weights read transposed and the biases from their one row. -/
theorem stored_apply (v0 v3 : Vec Ideal S2000x256 .f32) (v4 : Vec Ideal S256x256 .bf16) (v7 : Vec Ideal S1x256 .f32)
    (v12 : Vec Ideal S256x256 .bf16) (v20 : Vec Ideal S256x128 .bf16) (v23 : Vec Ideal S1x128 .f32)
    (v30 : Vec Ideal S128x32 .bf16) (v33 : Vec Ideal S1x32 .f32) (v40 : Vec Ideal S32x1 .bf16) (v43 : Vec Ideal S1x1 .f32)
    (p : Fin 2000) :
    k0_pay1 (k0_pay2 v0 v3 v4 v7 v12 v20 v23 v30) (k0_pay3 v33) v40 v43 (ix2 p 0)
      = nodeOut (fun k => v0 (ix2 p k)) (fun k => v3 (ix2 p k)) (fun j k => v4 (ix2 k j)) (fun j => v7 (ix2 0 j))
          (fun j k => v12 (ix2 k j)) (fun j k => v20 (ix2 k j)) (fun j => v23 (ix2 0 j)) (fun j k => v30 (ix2 k j))
          (fun j => v33 (ix2 0 j)) (fun j k => v40 (ix2 k j)) (fun j => v43 (ix2 0 j)) := by
  unfold k0_pay1 k0_pay2 k0_pay3 nodeOut mix dense relu
  simp only [addf_apply, maximumf_apply, truncf_apply, broadcast_apply, shapeCast_self, prod256, prod128, prod32, prod1,
    row256, row128, row32, row1]
  rfl

/-- The same for blocks cut from arrays: if row `p` of the two feature blocks is row `r` of the two feature arrays
    and the other blocks are their whole arrays, entry `(p, 0)` of the stored block is entry `(r, 0)` of
    `regionOut` of the arrays. -/
theorem stored_block (x0 x1 : Vec Ideal S2000x256 .f32) (x2 : Vec Ideal S256x256 .bf16) (x3 : Vec Ideal S1x256 .f32)
    (x4 : Vec Ideal S256x256 .bf16) (x5 : Vec Ideal S256x128 .bf16) (x6 : Vec Ideal S1x128 .f32)
    (x7 : Vec Ideal S128x32 .bf16) (x8 : Vec Ideal S1x32 .f32) (x9 : Vec Ideal S32x1 .bf16) (x10 : Vec Ideal S1x1 .f32)
    (A0 A1 : S100000x256.Idx → EReal) (A2 : S256x256.Idx → EReal) (A3 : S1x256.Idx → EReal) (A4 : S256x256.Idx → EReal)
    (A5 : S256x128.Idx → EReal) (A6 : S1x128.Idx → EReal) (A7 : S128x32.Idx → EReal) (A8 : S1x32.Idx → EReal)
    (A9 : S32x1.Idx → EReal) (A10 : S1x1.Idx → EReal) (p : Fin 2000) (r : Fin 100000)
    (h0 : ∀ k : Fin 256, x0 (ix2 p k) = A0 (ix2 r k)) (h1 : ∀ k : Fin 256, x1 (ix2 p k) = A1 (ix2 r k))
    (h2 : x2 = A2) (h3 : x3 = A3) (h4 : x4 = A4) (h5 : x5 = A5) (h6 : x6 = A6) (h7 : x7 = A7) (h8 : x8 = A8)
    (h9 : x9 = A9) (h10 : x10 = A10) :
    k0_pay1 (k0_pay2 x0 x1 x2 x3 x4 x5 x6 x7) (k0_pay3 x8) x9 x10 (ix2 p 0)
      = regionOut A0 A1 A2 A3 A4 A5 A6 A7 A8 A9 A10 (ix2 r 0) := by
  subst h2 h3 h4 h5 h6 h7 h8 h9 h10
  rw [stored_apply]
  show nodeOut (fun k => x0 (ix2 p k)) (fun k => x1 (ix2 p k)) _ _ _ _ _ _ _ _ _
    = nodeOut (fun k => A0 (ix2 r k)) (fun k => A1 (ix2 r k)) _ _ _ _ _ _ _ _ _
  rw [show (fun k => x0 (ix2 p k)) = fun k => A0 (ix2 r k) from funext h0,
    show (fun k => x1 (ix2 p k)) = fun k => A1 (ix2 r k) from funext h1]

end Cert.KernelIdeal.Body

end
-- ==== Proof.KernelArrays.lean ====
/-
  The arrays the kernel region reads, as the host operations before it leave them, at the ideal values.

  The neighbour-mean array is computed before the region by the same chain of host operations as in the reference
  program (slices of the edge list, a gather of feature rows, two scatter-adds, a maximum with one, a division), so it
  is the reference's own term for that stage, read off the two argument arrays. Each weight matrix reaches the region
  transposed, its format change the identity: entry `(k, j)` is entry `(j, k)` of the argument. Each bias vector
  reaches it reshaped to one row: entry `(0, j)` is entry `j` of the argument.
-/
import proofs.«108088_j23192823398472_1_alg».proof.Proof.Gen.KernelIdeal.Frame
import proofs.«108088_j23192823398472_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The mean array the region finds is the reference's stage term for the mean, of the feature and edge arguments. -/
theorem mean_eq (c : Dev nD) :
    (V m c main_v22 : S100000x256.Idx → EReal)
      = Cert.ReferenceIdeal.Read.val_main_v22 (F := Ideal) (m ((c : Thread nD τ).loc main_arg0)) (m ((c : Thread nD τ).loc main_arg1)) := by
  dsimp only [V, hostOps0]
  after_results_simp <;> rfl

/-- The neighbour weights reach the region transposed. -/
theorem wl_apply (c : Dev nD) (k : Fin 256) (j : Fin 256) :
    (V m c main_v24 : S256x256.Idx → EReal) (ix2 k j) = (m ((c : Thread nD τ).loc main_arg2) : S256x256.Idx → EReal) (ix2 j k) := by
  have e : @Eq (S256x256.Idx → EReal) (V m c main_v24)
      (truncf (F := Ideal) .bf16 (transpose S256x256 [1, 0] (m ((c : Thread nD τ).loc main_arg2) : S256x256.Idx → EReal) transposes_S256x256_S256x256_1_0) bitsLt_bf16_f32) := by
    dsimp only [V, hostOps0]
    after_results_simp <;> rfl
  rw [e]
  exact transpose_apply [1, 0] _ transposes_S256x256_S256x256_1_0 (ix2 k j) (ix2 j k) (fun b => match b with
    | ⟨0, _⟩ => rfl
    | ⟨1, _⟩ => rfl)

/-- The root weights reach the region transposed. -/
theorem wr_apply (c : Dev nD) (k : Fin 256) (j : Fin 256) :
    (V m c main_v26 : S256x256.Idx → EReal) (ix2 k j) = (m ((c : Thread nD τ).loc main_arg4) : S256x256.Idx → EReal) (ix2 j k) := by
  have e : @Eq (S256x256.Idx → EReal) (V m c main_v26)
      (truncf (F := Ideal) .bf16 (transpose S256x256 [1, 0] (m ((c : Thread nD τ).loc main_arg4) : S256x256.Idx → EReal) transposes_S256x256_S256x256_1_0) bitsLt_bf16_f32) := by
    dsimp only [V, hostOps0]
    after_results_simp <;> rfl
  rw [e]
  exact transpose_apply [1, 0] _ transposes_S256x256_S256x256_1_0 (ix2 k j) (ix2 j k) (fun b => match b with
    | ⟨0, _⟩ => rfl
    | ⟨1, _⟩ => rfl)

/-- The first dense layer's weights reach the region transposed. -/
theorem w1_apply (c : Dev nD) (k : Fin 256) (j : Fin 128) :
    (V m c main_v28 : S256x128.Idx → EReal) (ix2 k j) = (m ((c : Thread nD τ).loc main_arg5) : S128x256.Idx → EReal) (ix2 j k) := by
  have e : @Eq (S256x128.Idx → EReal) (V m c main_v28)
      (truncf (F := Ideal) .bf16 (transpose S256x128 [1, 0] (m ((c : Thread nD τ).loc main_arg5) : S128x256.Idx → EReal) transposes_S128x256_S256x128_1_0) bitsLt_bf16_f32) := by
    dsimp only [V, hostOps0]
    after_results_simp <;> rfl
  rw [e]
  exact transpose_apply [1, 0] _ transposes_S128x256_S256x128_1_0 (ix2 k j) (ix2 j k) (fun b => match b with
    | ⟨0, _⟩ => rfl
    | ⟨1, _⟩ => rfl)

/-- The second dense layer's weights reach the region transposed. -/
theorem w2_apply (c : Dev nD) (k : Fin 128) (j : Fin 32) :
    (V m c main_v30 : S128x32.Idx → EReal) (ix2 k j) = (m ((c : Thread nD τ).loc main_arg7) : S32x128.Idx → EReal) (ix2 j k) := by
  have e : @Eq (S128x32.Idx → EReal) (V m c main_v30)
      (truncf (F := Ideal) .bf16 (transpose S128x32 [1, 0] (m ((c : Thread nD τ).loc main_arg7) : S32x128.Idx → EReal) transposes_S32x128_S128x32_1_0) bitsLt_bf16_f32) := by
    dsimp only [V, hostOps0]
    after_results_simp <;> rfl
  rw [e]
  exact transpose_apply [1, 0] _ transposes_S32x128_S128x32_1_0 (ix2 k j) (ix2 j k) (fun b => match b with
    | ⟨0, _⟩ => rfl
    | ⟨1, _⟩ => rfl)

/-- The last dense layer's weights reach the region transposed. -/
theorem w3_apply (c : Dev nD) (k : Fin 32) (j : Fin 1) :
    (V m c main_v32 : S32x1.Idx → EReal) (ix2 k j) = (m ((c : Thread nD τ).loc main_arg9) : S1x32.Idx → EReal) (ix2 j k) := by
  have e : @Eq (S32x1.Idx → EReal) (V m c main_v32)
      (truncf (F := Ideal) .bf16 (transpose S32x1 [1, 0] (m ((c : Thread nD τ).loc main_arg9) : S1x32.Idx → EReal) transposes_S1x32_S32x1_1_0) bitsLt_bf16_f32) := by
    dsimp only [V, hostOps0]
    after_results_simp <;> rfl
  rw [e]
  exact transpose_apply [1, 0] _ transposes_S1x32_S32x1_1_0 (ix2 k j) (ix2 j k) (fun b => match b with
    | ⟨0, _⟩ => rfl
    | ⟨1, _⟩ => rfl)

/-- The graph layer's bias reaches the region as one row. -/
theorem bl_apply (c : Dev nD) (j : Fin 256) :
    (V m c main_v33 : S1x256.Idx → EReal) (ix2 0 j) = (m ((c : Thread nD τ).loc main_arg3) : S256.Idx → EReal) (ix1 j) := by
  have e : (V m c main_v33 : S1x256.Idx → EReal)
      = shapeCast S1x256 (m ((c : Thread nD τ).loc main_arg3) : S256.Idx → EReal) shapeCasts_S256_S1x256 := by
    dsimp only [V, hostOps0]
    after_results_simp <;> rfl
  rw [e]
  exact shapeCast_apply _ shapeCasts_S256_S1x256 (ix2 0 j) (ix1 j)
    (by rewrite [Shape.rowMajor_val_two, Shape.rowMajor_val_one]; show j.val = 0 * 256 + j.val; omega)

/-- The first dense layer's bias reaches the region as one row. -/
theorem b1_apply (c : Dev nD) (j : Fin 128) :
    (V m c main_v34 : S1x128.Idx → EReal) (ix2 0 j) = (m ((c : Thread nD τ).loc main_arg6) : S128.Idx → EReal) (ix1 j) := by
  have e : (V m c main_v34 : S1x128.Idx → EReal)
      = shapeCast S1x128 (m ((c : Thread nD τ).loc main_arg6) : S128.Idx → EReal) shapeCasts_S128_S1x128 := by
    dsimp only [V, hostOps0]
    after_results_simp <;> rfl
  rw [e]
  exact shapeCast_apply _ shapeCasts_S128_S1x128 (ix2 0 j) (ix1 j)
    (by rewrite [Shape.rowMajor_val_two, Shape.rowMajor_val_one]; show j.val = 0 * 128 + j.val; omega)

/-- The second dense layer's bias reaches the region as one row. -/
theorem b2_apply (c : Dev nD) (j : Fin 32) :
    (V m c main_v35 : S1x32.Idx → EReal) (ix2 0 j) = (m ((c : Thread nD τ).loc main_arg8) : S32.Idx → EReal) (ix1 j) := by
  have e : (V m c main_v35 : S1x32.Idx → EReal)
      = shapeCast S1x32 (m ((c : Thread nD τ).loc main_arg8) : S32.Idx → EReal) shapeCasts_S32_S1x32 := by
    dsimp only [V, hostOps0]
    after_results_simp <;> rfl
  rw [e]
  exact shapeCast_apply _ shapeCasts_S32_S1x32 (ix2 0 j) (ix1 j)
    (by rewrite [Shape.rowMajor_val_two, Shape.rowMajor_val_one]; show j.val = 0 * 32 + j.val; omega)

/-- The last dense layer's bias reaches the region as one row. -/
theorem b3_apply (c : Dev nD) (j : Fin 1) :
    (V m c main_v36 : S1x1.Idx → EReal) (ix2 0 j) = (m ((c : Thread nD τ).loc main_arg10) : S1.Idx → EReal) (ix1 j) := by
  have e : (V m c main_v36 : S1x1.Idx → EReal)
      = shapeCast S1x1 (m ((c : Thread nD τ).loc main_arg10) : S1.Idx → EReal) shapeCasts_S1_S1x1 := by
    dsimp only [V, hostOps0]
    after_results_simp <;> rfl
  rw [e]
  exact shapeCast_apply _ shapeCasts_S1_S1x1 (ix2 0 j) (ix1 j)
    (by rewrite [Shape.rowMajor_val_two, Shape.rowMajor_val_one]; show j.val = 0 * 1 + j.val; omega)

end Cert.KernelIdeal.Arrays

end
-- ==== Proof.KernelValue.lean ====
/-
  From what each grid point stores to the whole result column.

  The grid has 50 points. Point `t` reads rows `2000 t … 2000 t + 1999` of the mean array and of the feature array,
  every weight and bias array whole, and writes rows `2000 t … 2000 t + 1999` of the one-column result. By the body's
  value (`Body.stored_block`) what it writes is those rows of `regionOut` of the arrays the region finds; the 50 row
  blocks cover the column, so the column ends as `regionOut` of those arrays, which is `NodeSpec.G` of the
  reference's mean stage and the arguments once the transposed and reshaped arrays are read back to the arguments.
-/
import proofs.«108088_j23192823398472_1_alg».proof.Proof.Gen.KernelIdeal.Value
import proofs.«108088_j23192823398472_1_alg».proof.Proof.BodyRow
import proofs.«108088_j23192823398472_1_alg».proof.Proof.KernelArrays
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.NodeSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 50 grid points -/

/-- The two feature windows and the result window sit at row block `t`, column block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- Every weight and bias window sits at block (0, 0) at every point. -/
theorem idx_zero : ∀ t : Fin cfg0.N, win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

theorem t_lt (t : Fin cfg0.N) : t.val < 50 := lt_of_lt_of_eq t.isLt N_0

/-! ## Reading a window's block at an index

  A block read through its window is the array at the embedded index; stated once per window, over any contents of
  the window's array. -/

theorem read0 (c : Dev nD) (t : Fin cfg0.N) (A : Buf (Elt Ideal) ((c : Thread nD τ).loc main_v22)) (y : S2000x256.Idx) :
    ((cfg0.win 0).blk t).view.read (Elt Ideal) A y = A (((cfg0.win 0).blk t).view.emb y) :=
  (View.read_apply (v := ((cfg0.win 0).blk t).view) (Val := Elt Ideal) A y).trans
    (show _root_.cast (congrArg (Elt Ideal) ((cfg0.win 0).blk t).view.elt_eq) (A (((cfg0.win 0).blk t).view.emb y))
      = A (((cfg0.win 0).blk t).view.emb y) from rfl)

theorem read1 (c : Dev nD) (t : Fin cfg0.N) (A : Buf (Elt Ideal) ((c : Thread nD τ).loc main_arg0)) (y : S2000x256.Idx) :
    ((cfg0.win 1).blk t).view.read (Elt Ideal) A y = A (((cfg0.win 1).blk t).view.emb y) :=
  (View.read_apply (v := ((cfg0.win 1).blk t).view) (Val := Elt Ideal) A y).trans
    (show _root_.cast (congrArg (Elt Ideal) ((cfg0.win 1).blk t).view.elt_eq) (A (((cfg0.win 1).blk t).view.emb y))
      = A (((cfg0.win 1).blk t).view.emb y) from rfl)

theorem read2 (c : Dev nD) (t : Fin cfg0.N) (A : Buf (Elt Ideal) ((c : Thread nD τ).loc main_v24)) (y : S256x256.Idx) :
    ((cfg0.win 2).blk t).view.read (Elt Ideal) A y = A (((cfg0.win 2).blk t).view.emb y) :=
  (View.read_apply (v := ((cfg0.win 2).blk t).view) (Val := Elt Ideal) A y).trans
    (show _root_.cast (congrArg (Elt Ideal) ((cfg0.win 2).blk t).view.elt_eq) (A (((cfg0.win 2).blk t).view.emb y))
      = A (((cfg0.win 2).blk t).view.emb y) from rfl)

theorem read3 (c : Dev nD) (t : Fin cfg0.N) (A : Buf (Elt Ideal) ((c : Thread nD τ).loc main_v33)) (y : S1x256.Idx) :
    ((cfg0.win 3).blk t).view.read (Elt Ideal) A y = A (((cfg0.win 3).blk t).view.emb y) :=
  (View.read_apply (v := ((cfg0.win 3).blk t).view) (Val := Elt Ideal) A y).trans
    (show _root_.cast (congrArg (Elt Ideal) ((cfg0.win 3).blk t).view.elt_eq) (A (((cfg0.win 3).blk t).view.emb y))
      = A (((cfg0.win 3).blk t).view.emb y) from rfl)

theorem read4 (c : Dev nD) (t : Fin cfg0.N) (A : Buf (Elt Ideal) ((c : Thread nD τ).loc main_v26)) (y : S256x256.Idx) :
    ((cfg0.win 4).blk t).view.read (Elt Ideal) A y = A (((cfg0.win 4).blk t).view.emb y) :=
  (View.read_apply (v := ((cfg0.win 4).blk t).view) (Val := Elt Ideal) A y).trans
    (show _root_.cast (congrArg (Elt Ideal) ((cfg0.win 4).blk t).view.elt_eq) (A (((cfg0.win 4).blk t).view.emb y))
      = A (((cfg0.win 4).blk t).view.emb y) from rfl)

theorem read5 (c : Dev nD) (t : Fin cfg0.N) (A : Buf (Elt Ideal) ((c : Thread nD τ).loc main_v28)) (y : S256x128.Idx) :
    ((cfg0.win 5).blk t).view.read (Elt Ideal) A y = A (((cfg0.win 5).blk t).view.emb y) :=
  (View.read_apply (v := ((cfg0.win 5).blk t).view) (Val := Elt Ideal) A y).trans
    (show _root_.cast (congrArg (Elt Ideal) ((cfg0.win 5).blk t).view.elt_eq) (A (((cfg0.win 5).blk t).view.emb y))
      = A (((cfg0.win 5).blk t).view.emb y) from rfl)

theorem read6 (c : Dev nD) (t : Fin cfg0.N) (A : Buf (Elt Ideal) ((c : Thread nD τ).loc main_v34)) (y : S1x128.Idx) :
    ((cfg0.win 6).blk t).view.read (Elt Ideal) A y = A (((cfg0.win 6).blk t).view.emb y) :=
  (View.read_apply (v := ((cfg0.win 6).blk t).view) (Val := Elt Ideal) A y).trans
    (show _root_.cast (congrArg (Elt Ideal) ((cfg0.win 6).blk t).view.elt_eq) (A (((cfg0.win 6).blk t).view.emb y))
      = A (((cfg0.win 6).blk t).view.emb y) from rfl)

theorem read7 (c : Dev nD) (t : Fin cfg0.N) (A : Buf (Elt Ideal) ((c : Thread nD τ).loc main_v30)) (y : S128x32.Idx) :
    ((cfg0.win 7).blk t).view.read (Elt Ideal) A y = A (((cfg0.win 7).blk t).view.emb y) :=
  (View.read_apply (v := ((cfg0.win 7).blk t).view) (Val := Elt Ideal) A y).trans
    (show _root_.cast (congrArg (Elt Ideal) ((cfg0.win 7).blk t).view.elt_eq) (A (((cfg0.win 7).blk t).view.emb y))
      = A (((cfg0.win 7).blk t).view.emb y) from rfl)

theorem read8 (c : Dev nD) (t : Fin cfg0.N) (A : Buf (Elt Ideal) ((c : Thread nD τ).loc main_v35)) (y : S1x32.Idx) :
    ((cfg0.win 8).blk t).view.read (Elt Ideal) A y = A (((cfg0.win 8).blk t).view.emb y) :=
  (View.read_apply (v := ((cfg0.win 8).blk t).view) (Val := Elt Ideal) A y).trans
    (show _root_.cast (congrArg (Elt Ideal) ((cfg0.win 8).blk t).view.elt_eq) (A (((cfg0.win 8).blk t).view.emb y))
      = A (((cfg0.win 8).blk t).view.emb y) from rfl)

theorem read9 (c : Dev nD) (t : Fin cfg0.N) (A : Buf (Elt Ideal) ((c : Thread nD τ).loc main_v32)) (y : S32x1.Idx) :
    ((cfg0.win 9).blk t).view.read (Elt Ideal) A y = A (((cfg0.win 9).blk t).view.emb y) :=
  (View.read_apply (v := ((cfg0.win 9).blk t).view) (Val := Elt Ideal) A y).trans
    (show _root_.cast (congrArg (Elt Ideal) ((cfg0.win 9).blk t).view.elt_eq) (A (((cfg0.win 9).blk t).view.emb y))
      = A (((cfg0.win 9).blk t).view.emb y) from rfl)

theorem read10 (c : Dev nD) (t : Fin cfg0.N) (A : Buf (Elt Ideal) ((c : Thread nD τ).loc main_v36)) (y : S1x1.Idx) :
    ((cfg0.win 10).blk t).view.read (Elt Ideal) A y = A (((cfg0.win 10).blk t).view.emb y) :=
  (View.read_apply (v := ((cfg0.win 10).blk t).view) (Val := Elt Ideal) A y).trans
    (show _root_.cast (congrArg (Elt Ideal) ((cfg0.win 10).blk t).view.elt_eq) (A (((cfg0.win 10).blk t).view.emb y))
      = A (((cfg0.win 10).blk t).view.emb y) from rfl)

theorem read11 (c : Dev nD) (t : Fin cfg0.N) (A : Buf (Elt Ideal) ((c : Thread nD τ).loc main_v37)) (y : S2000x1.Idx) :
    ((cfg0.win 11).blk t).view.read (Elt Ideal) A y = A (((cfg0.win 11).blk t).view.emb y) :=
  (View.read_apply (v := ((cfg0.win 11).blk t).view) (Val := Elt Ideal) A y).trans
    (show _root_.cast (congrArg (Elt Ideal) ((cfg0.win 11).blk t).view.elt_eq) (A (((cfg0.win 11).blk t).view.emb y))
      = A (((cfg0.win 11).blk t).view.emb y) from rfl)

/-- The result window moves its whole block: nothing is cut off. -/
theorem cut11 (t : Fin cfg0.N) (P : Vec Ideal S2000x1 .f32) (y : S2000x1.Idx) :
    (cfg0.win 11).cut (grid0.coords t) P y = P y := rfl

/-! ## Where a block's index sits in its array -/

theorem embRows0 (t : Fin cfg0.N) (p : Fin 2000) (k : Fin 256) (r : Fin 100000) (hr : r.val = t.val * 2000 + p.val) :
    ((cfg0.win 0).blk t).view.emb (ix2 p k) = ix2 r k := by
  have e := idx_rows t
  refine funext fun a => Fin.ext ?_
  match a with
  | ⟨0, _⟩ => show win0_0.index t (0 : Fin 2) * 2000 + 1 * p.val = r.val; rw [e.1]; omega
  | ⟨1, _⟩ => show win0_0.index t (1 : Fin 2) * 256 + 1 * k.val = k.val; rw [e.2.1]; omega

theorem embRows1 (t : Fin cfg0.N) (p : Fin 2000) (k : Fin 256) (r : Fin 100000) (hr : r.val = t.val * 2000 + p.val) :
    ((cfg0.win 1).blk t).view.emb (ix2 p k) = ix2 r k := by
  have e := idx_rows t
  refine funext fun a => Fin.ext ?_
  match a with
  | ⟨0, _⟩ => show win0_1.index t (0 : Fin 2) * 2000 + 1 * p.val = r.val; rw [e.2.2.1]; omega
  | ⟨1, _⟩ => show win0_1.index t (1 : Fin 2) * 256 + 1 * k.val = k.val; rw [e.2.2.2.1]; omega

theorem embWhole2 (t : Fin cfg0.N) (y : S256x256.Idx) : ((cfg0.win 2).blk t).view.emb y = y := by
  have e := idx_zero t
  refine funext fun a => Fin.ext ?_
  match a with
  | ⟨0, _⟩ => show win0_2.index t (0 : Fin 2) * 256 + 1 * (y 0).val = (y 0).val; rw [e.1]; omega
  | ⟨1, _⟩ => show win0_2.index t (1 : Fin 2) * 256 + 1 * (y 1).val = (y 1).val; rw [e.2.1]; omega

theorem embWhole3 (t : Fin cfg0.N) (y : S1x256.Idx) : ((cfg0.win 3).blk t).view.emb y = y := by
  have e := idx_zero t
  refine funext fun a => Fin.ext ?_
  match a with
  | ⟨0, _⟩ => show win0_3.index t (0 : Fin 2) * 1 + 1 * (y 0).val = (y 0).val; rw [e.2.2.1]; omega
  | ⟨1, _⟩ => show win0_3.index t (1 : Fin 2) * 256 + 1 * (y 1).val = (y 1).val; rw [e.2.2.2.1]; omega

theorem embWhole4 (t : Fin cfg0.N) (y : S256x256.Idx) : ((cfg0.win 4).blk t).view.emb y = y := by
  have e := idx_zero t
  refine funext fun a => Fin.ext ?_
  match a with
  | ⟨0, _⟩ => show win0_4.index t (0 : Fin 2) * 256 + 1 * (y 0).val = (y 0).val; rw [e.2.2.2.2.1]; omega
  | ⟨1, _⟩ => show win0_4.index t (1 : Fin 2) * 256 + 1 * (y 1).val = (y 1).val; rw [e.2.2.2.2.2.1]; omega

theorem embWhole5 (t : Fin cfg0.N) (y : S256x128.Idx) : ((cfg0.win 5).blk t).view.emb y = y := by
  have e := idx_zero t
  refine funext fun a => Fin.ext ?_
  match a with
  | ⟨0, _⟩ => show win0_5.index t (0 : Fin 2) * 256 + 1 * (y 0).val = (y 0).val; rw [e.2.2.2.2.2.2.1]; omega
  | ⟨1, _⟩ => show win0_5.index t (1 : Fin 2) * 128 + 1 * (y 1).val = (y 1).val; rw [e.2.2.2.2.2.2.2.1]; omega

theorem embWhole6 (t : Fin cfg0.N) (y : S1x128.Idx) : ((cfg0.win 6).blk t).view.emb y = y := by
  have e := idx_zero t
  refine funext fun a => Fin.ext ?_
  match a with
  | ⟨0, _⟩ => show win0_6.index t (0 : Fin 2) * 1 + 1 * (y 0).val = (y 0).val; rw [e.2.2.2.2.2.2.2.2.1]; omega
  | ⟨1, _⟩ => show win0_6.index t (1 : Fin 2) * 128 + 1 * (y 1).val = (y 1).val; rw [e.2.2.2.2.2.2.2.2.2.1]; omega

theorem embWhole7 (t : Fin cfg0.N) (y : S128x32.Idx) : ((cfg0.win 7).blk t).view.emb y = y := by
  have e := idx_zero t
  refine funext fun a => Fin.ext ?_
  match a with
  | ⟨0, _⟩ => show win0_7.index t (0 : Fin 2) * 128 + 1 * (y 0).val = (y 0).val; rw [e.2.2.2.2.2.2.2.2.2.2.1]; omega
  | ⟨1, _⟩ => show win0_7.index t (1 : Fin 2) * 32 + 1 * (y 1).val = (y 1).val; rw [e.2.2.2.2.2.2.2.2.2.2.2.1]; omega

theorem embWhole8 (t : Fin cfg0.N) (y : S1x32.Idx) : ((cfg0.win 8).blk t).view.emb y = y := by
  have e := idx_zero t
  refine funext fun a => Fin.ext ?_
  match a with
  | ⟨0, _⟩ => show win0_8.index t (0 : Fin 2) * 1 + 1 * (y 0).val = (y 0).val; rw [e.2.2.2.2.2.2.2.2.2.2.2.2.1]; omega
  | ⟨1, _⟩ => show win0_8.index t (1 : Fin 2) * 32 + 1 * (y 1).val = (y 1).val; rw [e.2.2.2.2.2.2.2.2.2.2.2.2.2.1]; omega

theorem embWhole9 (t : Fin cfg0.N) (y : S32x1.Idx) : ((cfg0.win 9).blk t).view.emb y = y := by
  have e := idx_zero t
  refine funext fun a => Fin.ext ?_
  match a with
  | ⟨0, _⟩ => show win0_9.index t (0 : Fin 2) * 32 + 1 * (y 0).val = (y 0).val; rw [e.2.2.2.2.2.2.2.2.2.2.2.2.2.2.1]; omega
  | ⟨1, _⟩ => show win0_9.index t (1 : Fin 2) * 1 + 1 * (y 1).val = (y 1).val; rw [e.2.2.2.2.2.2.2.2.2.2.2.2.2.2.2.1]; omega

theorem embWhole10 (t : Fin cfg0.N) (y : S1x1.Idx) : ((cfg0.win 10).blk t).view.emb y = y := by
  have e := idx_zero t
  refine funext fun a => Fin.ext ?_
  match a with
  | ⟨0, _⟩ => show win0_10.index t (0 : Fin 2) * 1 + 1 * (y 0).val = (y 0).val; rw [e.2.2.2.2.2.2.2.2.2.2.2.2.2.2.2.2.1]; omega
  | ⟨1, _⟩ => show win0_10.index t (1 : Fin 2) * 1 + 1 * (y 1).val = (y 1).val; rw [e.2.2.2.2.2.2.2.2.2.2.2.2.2.2.2.2.2]; omega

theorem emb11 (t : Fin cfg0.N) (p : Fin 2000) (r : Fin 100000) (hr : r.val = t.val * 2000 + p.val) :
    ((cfg0.win 11).blk t).view.emb (ix2 p (0 : Fin 1)) = ix2 r (0 : Fin 1) := by
  have e := idx_rows t
  refine funext fun a => Fin.ext ?_
  match a with
  | ⟨0, _⟩ => show win0_11.index t (0 : Fin 2) * 2000 + 1 * p.val = r.val; rw [e.2.2.2.2.1]; omega
  | ⟨1, _⟩ => show win0_11.index t (1 : Fin 2) * 1 + 1 * 0 = 0; rw [e.2.2.2.2.2]

/-! ## Each window's block as part of its array -/

/-- Row \`p\` of the mean window's block at point \`t\` is row \`2000 t + p\` of the mean array. -/
theorem rows0 (c : Dev nD) (t : Fin cfg0.N) (p : Fin 2000) (k : Fin 256) (r : Fin 100000) (hr : r.val = t.val * 2000 + p.val) :
    (iblk m c 0 t : Vec Ideal S2000x256 .f32) (ix2 p k) = (V m c main_v22 : S100000x256.Idx → EReal) (ix2 r k) := by
  unfold iblk
  change ((cfg0.win 0).blk t).view.read (Elt Ideal) (V m c main_v22) (ix2 p k) = V m c main_v22 (ix2 r k)
  generalize V m c main_v22 = A
  exact (read0 c t A (ix2 p k)).trans (congrArg A (embRows0 t p k r hr))

/-- Row \`p\` of the feature window's block at point \`t\` is row \`2000 t + p\` of the feature array. -/
theorem rows1 (c : Dev nD) (t : Fin cfg0.N) (p : Fin 2000) (k : Fin 256) (r : Fin 100000) (hr : r.val = t.val * 2000 + p.val) :
    (iblk m c 1 t : Vec Ideal S2000x256 .f32) (ix2 p k) = (V m c main_arg0 : S100000x256.Idx → EReal) (ix2 r k) := by
  unfold iblk
  change ((cfg0.win 1).blk t).view.read (Elt Ideal) (V m c main_arg0) (ix2 p k) = V m c main_arg0 (ix2 r k)
  generalize V m c main_arg0 = A
  exact (read1 c t A (ix2 p k)).trans (congrArg A (embRows1 t p k r hr))

/-! Each weight and bias window's block is its whole array. -/

theorem whole2 (c : Dev nD) (t : Fin cfg0.N) :
    (iblk m c 2 t : Vec Ideal S256x256 .bf16) = (V m c main_v24 : S256x256.Idx → EReal) := by
  funext y
  unfold iblk
  change ((cfg0.win 2).blk t).view.read (Elt Ideal) (V m c main_v24) y = V m c main_v24 y
  generalize V m c main_v24 = A
  exact (read2 c t A y).trans (congrArg A (embWhole2 t y))

theorem whole3 (c : Dev nD) (t : Fin cfg0.N) :
    (iblk m c 3 t : Vec Ideal S1x256 .f32) = (V m c main_v33 : S1x256.Idx → EReal) := by
  funext y
  unfold iblk
  change ((cfg0.win 3).blk t).view.read (Elt Ideal) (V m c main_v33) y = V m c main_v33 y
  generalize V m c main_v33 = A
  exact (read3 c t A y).trans (congrArg A (embWhole3 t y))

theorem whole4 (c : Dev nD) (t : Fin cfg0.N) :
    (iblk m c 4 t : Vec Ideal S256x256 .bf16) = (V m c main_v26 : S256x256.Idx → EReal) := by
  funext y
  unfold iblk
  change ((cfg0.win 4).blk t).view.read (Elt Ideal) (V m c main_v26) y = V m c main_v26 y
  generalize V m c main_v26 = A
  exact (read4 c t A y).trans (congrArg A (embWhole4 t y))

theorem whole5 (c : Dev nD) (t : Fin cfg0.N) :
    (iblk m c 5 t : Vec Ideal S256x128 .bf16) = (V m c main_v28 : S256x128.Idx → EReal) := by
  funext y
  unfold iblk
  change ((cfg0.win 5).blk t).view.read (Elt Ideal) (V m c main_v28) y = V m c main_v28 y
  generalize V m c main_v28 = A
  exact (read5 c t A y).trans (congrArg A (embWhole5 t y))

theorem whole6 (c : Dev nD) (t : Fin cfg0.N) :
    (iblk m c 6 t : Vec Ideal S1x128 .f32) = (V m c main_v34 : S1x128.Idx → EReal) := by
  funext y
  unfold iblk
  change ((cfg0.win 6).blk t).view.read (Elt Ideal) (V m c main_v34) y = V m c main_v34 y
  generalize V m c main_v34 = A
  exact (read6 c t A y).trans (congrArg A (embWhole6 t y))

theorem whole7 (c : Dev nD) (t : Fin cfg0.N) :
    (iblk m c 7 t : Vec Ideal S128x32 .bf16) = (V m c main_v30 : S128x32.Idx → EReal) := by
  funext y
  unfold iblk
  change ((cfg0.win 7).blk t).view.read (Elt Ideal) (V m c main_v30) y = V m c main_v30 y
  generalize V m c main_v30 = A
  exact (read7 c t A y).trans (congrArg A (embWhole7 t y))

theorem whole8 (c : Dev nD) (t : Fin cfg0.N) :
    (iblk m c 8 t : Vec Ideal S1x32 .f32) = (V m c main_v35 : S1x32.Idx → EReal) := by
  funext y
  unfold iblk
  change ((cfg0.win 8).blk t).view.read (Elt Ideal) (V m c main_v35) y = V m c main_v35 y
  generalize V m c main_v35 = A
  exact (read8 c t A y).trans (congrArg A (embWhole8 t y))

theorem whole9 (c : Dev nD) (t : Fin cfg0.N) :
    (iblk m c 9 t : Vec Ideal S32x1 .bf16) = (V m c main_v32 : S32x1.Idx → EReal) := by
  funext y
  unfold iblk
  change ((cfg0.win 9).blk t).view.read (Elt Ideal) (V m c main_v32) y = V m c main_v32 y
  generalize V m c main_v32 = A
  exact (read9 c t A y).trans (congrArg A (embWhole9 t y))

theorem whole10 (c : Dev nD) (t : Fin cfg0.N) :
    (iblk m c 10 t : Vec Ideal S1x1 .f32) = (V m c main_v36 : S1x1.Idx → EReal) := by
  funext y
  unfold iblk
  change ((cfg0.win 10).blk t).view.read (Elt Ideal) (V m c main_v36) y = V m c main_v36 y
  generalize V m c main_v36 = A
  exact (read10 c t A y).trans (congrArg A (embWhole10 t y))

/-! ## What a point writes back, the cover, the final column -/

/-- For any eleven arrays and any eleven blocks that are rows `2000 t …` of the first two arrays and the other nine
    arrays whole: what the body stores from those blocks, read through the result window at point `t`, is the result
    window's block at `t` of `regionOut` of the arrays, entry by entry. -/
theorem stored_is_block (c : Dev nD) (t : Fin cfg0.N) (x0 x1 : Vec Ideal S2000x256 .f32) (x2 : Vec Ideal S256x256 .bf16) (x3 : Vec Ideal S1x256 .f32)
    (x4 : Vec Ideal S256x256 .bf16) (x5 : Vec Ideal S256x128 .bf16) (x6 : Vec Ideal S1x128 .f32)
    (x7 : Vec Ideal S128x32 .bf16) (x8 : Vec Ideal S1x32 .f32) (x9 : Vec Ideal S32x1 .bf16) (x10 : Vec Ideal S1x1 .f32)
    (A0 A1 : S100000x256.Idx → EReal) (A2 : S256x256.Idx → EReal) (A3 : S1x256.Idx → EReal) (A4 : S256x256.Idx → EReal)
    (A5 : S256x128.Idx → EReal) (A6 : S1x128.Idx → EReal) (A7 : S128x32.Idx → EReal) (A8 : S1x32.Idx → EReal)
    (A9 : S32x1.Idx → EReal) (A10 : S1x1.Idx → EReal)
    (h0 : ∀ (p : Fin 2000) (k : Fin 256) (r : Fin 100000), r.val = t.val * 2000 + p.val → x0 (ix2 p k) = A0 (ix2 r k))
    (h1 : ∀ (p : Fin 2000) (k : Fin 256) (r : Fin 100000), r.val = t.val * 2000 + p.val → x1 (ix2 p k) = A1 (ix2 r k))
    (h2 : x2 = A2) (h3 : x3 = A3) (h4 : x4 = A4) (h5 : x5 = A5) (h6 : x6 = A6) (h7 : x7 = A7) (h8 : x8 = A8)
    (h9 : x9 = A9) (h10 : x10 = A10) (y : S2000x1.Idx) :
    (cfg0.win 11).cut (grid0.coords t) (k0_pay1 (k0_pay2 x0 x1 x2 x3 x4 x5 x6 x7) (k0_pay3 x8) x9 x10) y
      = ((cfg0.win 11).blk t).view.read (Elt Ideal) (regionOut A0 A1 A2 A3 A4 A5 A6 A7 A8 A9 A10) y := by
  have ht := t_lt t
  obtain ⟨p, q, rfl⟩ : ∃ (p : Fin 2000) (q : Fin 1), y = ix2 p q := ⟨y 0, y 1, eq_ix2 y⟩
  obtain rfl : q = 0 := Fin.ext (by have hq := q.isLt; show q.val = 0; omega)
  have hp : p.val < 2000 := p.isLt
  have hr : t.val * 2000 + p.val < 100000 := by omega
  refine (cut11 t (k0_pay1 (k0_pay2 x0 x1 x2 x3 x4 x5 x6 x7) (k0_pay3 x8) x9 x10) (ix2 p 0)).trans ?_
  refine Eq.trans ?_ (read11 c t (regionOut A0 A1 A2 A3 A4 A5 A6 A7 A8 A9 A10) (ix2 p 0)).symm
  rw [emb11 t p ⟨t.val * 2000 + p.val, hr⟩ rfl]
  exact Body.stored_block x0 x1 x2 x3 x4 x5 x6 x7 x8 x9 x10 A0 A1 A2 A3 A4 A5 A6 A7 A8 A9 A10 p ⟨t.val * 2000 + p.val, hr⟩
    (fun k => h0 p k ⟨t.val * 2000 + p.val, hr⟩ rfl) (fun k => h1 p k ⟨t.val * 2000 + p.val, hr⟩ rfl) h2 h3 h4 h5 h6 h7 h8 h9 h10

/-- The column the region's arrays determine. -/
abbrev regionCol (c : Dev nD) : S100000x1.Idx → EReal :=
  regionOut (V m c main_v22) (V m c main_arg0) (V m c main_v24) (V m c main_v33) (V m c main_v26) (V m c main_v28)
    (V m c main_v34) (V m c main_v30) (V m c main_v35) (V m c main_v32) (V m c main_v36)

/-- Point `t` writes back rows `2000 t … 2000 t + 1999` of `regionCol`. -/
theorem flushed_eq (c : Dev nD) (t : Fin cfg0.N) :
    (dats m 0 c).flushed 11 t = ((cfg0.win 11).blk t).view.read (Elt Ideal) (regionCol m c) := by
  rw [flushed11]
  unfold out0_11
  rw [View.canon_unit_zero hz]
  simp only [View.ld_unit_zero (S := S2000x256) hz, View.ld_unit_zero (S := S256x256) hz, View.ld_unit_zero (S := S1x256) hz,
    View.ld_unit_zero (S := S256x128) hz, View.ld_unit_zero (S := S1x128) hz, View.ld_unit_zero (S := S128x32) hz,
    View.ld_unit_zero (S := S1x32) hz, View.ld_unit_zero (S := S32x1) hz, View.ld_unit_zero (S := S1x1) hz]
  funext y
  exact stored_is_block c t (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (V m c main_v22) (V m c main_arg0) (V m c main_v24) (V m c main_v33) (V m c main_v26) (V m c main_v28)
    (V m c main_v34) (V m c main_v30) (V m c main_v35) (V m c main_v32) (V m c main_v36)
    (fun p k r hr => rows0 m c t p k r hr) (fun p k r hr => rows1 m c t p k r hr)
    (whole2 m c t) (whole3 m c t) (whole4 m c t) (whole5 m c t) (whole6 m c t) (whole7 m c t) (whole8 m c t) (whole9 m c t)
    (whole10 m c t) y

/-- An index of the column is in point `t`'s block iff each coordinate is in the block's range on its axis. -/
theorem mem_blk (t : Fin cfg0.N) (i : S100000x1.Idx) :
    i ∈ ((cfg0.win 11).blk t).view.set ↔ ∀ a : Fin 2, win0_11.index t a * S2000x1.size a ≤ (i a).val ∧ (i a).val < win0_11.index t a * S2000x1.size a + S2000x1.size a := by
  show i ∈ ((View.whole main_v37).slice (win0_11.rect t)).set ↔ _
  rw [View.set_slice_whole, Rect.mem_set_unit]
  exact Iff.rfl

/-- Every index of the column is in the block of the point its row falls in. -/
theorem cover (i : S100000x1.Idx) : ∃ t : Fin cfg0.N, (cfg0.win 11).flush t = true ∧ i ∈ ((cfg0.win 11).blk t).view.set := by
  have hi0 : (i 0).val < 100000 := (i 0).isLt
  have hi1 : (i 1).val < 1 := (i 1).isLt
  have hN : cfg0.N = 50 := N_0
  have hlt : (i 0).val / 2000 < cfg0.N := by rw [hN]; omega
  obtain ⟨-, -, -, -, e4, e5⟩ := idx_rows ⟨(i 0).val / 2000, hlt⟩
  have e4' : win0_11.index ⟨(i 0).val / 2000, hlt⟩ (0 : Fin 2) = (i 0).val / 2000 := e4
  refine ⟨⟨(i 0).val / 2000, hlt⟩, flush0_11 _, ?_⟩
  rw [mem_blk]
  intro a
  match a with
  | ⟨0, _⟩ =>
    show win0_11.index ⟨(i 0).val / 2000, hlt⟩ (0 : Fin 2) * 2000 ≤ (i 0).val
      ∧ (i 0).val < win0_11.index ⟨(i 0).val / 2000, hlt⟩ (0 : Fin 2) * 2000 + 2000
    rw [e4']; omega
  | ⟨1, _⟩ =>
    show win0_11.index ⟨(i 0).val / 2000, hlt⟩ (1 : Fin 2) * 1 ≤ (i 1).val
      ∧ (i 1).val < win0_11.index ⟨(i 0).val / 2000, hlt⟩ (1 : Fin 2) * 1 + 1
    rw [e5]; omega

/-- The result column after the run is `regionCol`. -/
theorem final (c : Dev nD) : (dats m 0 c).arrAt 11 cfg0.N = regionCol m c :=
  (dats m 0 c).arrAt_eq_of_cover 11 (regionCol m c) (fun t _ => flushed_eq m c t) cover

/-- Read back to the arguments, `regionCol` is `G` of the reference's mean stage and the arguments. -/
theorem regionCol_eq (c : Dev nD) :
    regionCol m c = G (Cert.ReferenceIdeal.Read.val_main_v22 (F := Ideal) (m ((c : Thread nD τ).loc main_arg0)) (m ((c : Thread nD τ).loc main_arg1)))
      (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  funext i
  unfold regionCol regionOut G
  rewrite [Arrays.mean_eq m c, V_main_arg0 m c]
  generalize Cert.ReferenceIdeal.Read.val_main_v22 (F := Ideal) (m ((c : Thread nD τ).loc main_arg0)) (m ((c : Thread nD τ).loc main_arg1)) = mean
  simp only [Arrays.wl_apply m c, Arrays.wr_apply m c, Arrays.w1_apply m c, Arrays.w2_apply m c, Arrays.w3_apply m c,
    Arrays.bl_apply m c, Arrays.b1_apply m c, Arrays.b2_apply m c, Arrays.b3_apply m c]

/-- The kernel's run with the result column named: `G` of the reference's mean stage and the arguments. -/
theorem run : θ_run defs (onTc (τ := τ) (main (F := Ideal))) ⟨m, fun _ => 0, ρ⟩ fun r => ∀ c : Dev nD,
      r.2.mem ((c : Thread nD τ).loc main_v37)
        = G (Cert.ReferenceIdeal.Read.val_main_v22 (F := Ideal) (m ((c : Thread nD τ).loc main_arg0)) (m ((c : Thread nD τ).loc main_arg1)))
            (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9))
            (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((final m c).trans (regionCol_eq m c)), (h c).2⟩)
    (run_blocks m ρ)

end Cert.KernelIdeal.Whole

end
-- ==== Proof.RefValue.lean ====
/-
  The reference program's result, entry by entry, is the node function of each node's two rows.

  The reference works on whole arrays: products of the 100000-row arrays with the transposed weight matrices, biases
  broadcast down the rows, the larger of each entry and zero, a row-wise residual. An entry `(r, j)` of each stage
  depends on row `r` of the stage before only, so the stages compose row by row into `NodeSpec.nodeOut`, and the
  result column is `NodeSpec.G` of the reference's own mean stage and the arguments.
-/
import proofs.«108088_j23192823398472_1_alg».proof.Proof.Gen.ReferenceIdeal.Read
import proofs.«108088_j23192823398472_1_alg».proof.Proof.NodeSpec

noncomputable section

open scoped BigOperators

namespace Cert.ReferenceIdeal.RefValue

open Cert.ReferenceIdeal Cert.ReferenceIdeal.Read Idealize.ShloMosaic Idealize.ShloMosaic.ValueIdx Cert.NodeSpec

variable (x0 : (⟨S100000x256, .f32⟩ : BufTy).Contents (Elt Ideal)) (x1 : (⟨S2x800000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S128x256, .f32⟩ : BufTy).Contents (Elt Ideal)) (x6 : (⟨S128, .f32⟩ : BufTy).Contents (Elt Ideal)) (x7 : (⟨S32x128, .f32⟩ : BufTy).Contents (Elt Ideal)) (x8 : (⟨S32, .f32⟩ : BufTy).Contents (Elt Ideal)) (x9 : (⟨S1x32, .f32⟩ : BufTy).Contents (Elt Ideal)) (x10 : (⟨S1, .f32⟩ : BufTy).Contents (Elt Ideal))

/-- The graph layer's output at `(r, j)`: the mix of node `r`'s mean row and feature row. -/
theorem mix_apply (r : Fin 100000) (j : Fin 256) :
    val_main_v32 (F := Ideal) x0 x1 x2 x3 x4 (ix2 r j)
      = mix (fun k => val_main_v22 (F := Ideal) x0 x1 (ix2 r k)) (fun k => x0 (ix2 r k)) (fun j k => x2 (ix2 j k))
          (fun j => x3 (ix1 j)) (fun j k => x4 (ix2 j k)) j := by
  rw [val_main_v32_apply, val_main_v31_apply, val_main_v30_apply, val_main_v27_apply, val_main_v24_apply, val_main_v29_apply,
    val_main_v26_apply, val_main_v25_apply, val_main_call0_v0_apply, val_main_call0_cst_apply]
  generalize val_main_v22 (F := Ideal) x0 x1 = mean
  have e1 : ∀ k : Fin 256, mean (lidx_main_v24 (ix2 r j) k) = mean (ix2 r k) := fun k =>
    congrArg mean (funext fun a => by match a with | ⟨0, _⟩ => rfl | ⟨1, _⟩ => rfl)
  have e2 : ∀ k : Fin 256, val_main_v23 (F := Ideal) x2 (ridx_main_v24 (ix2 r j) k) = x2 (ix2 j k) := fun k =>
    (val_main_v23_apply x2 _).trans (congrArg x2 (funext fun a => by match a with | ⟨0, _⟩ => rfl | ⟨1, _⟩ => rfl))
  have e3 : x3 (idx_main_v25 (idx_main_v26 (ix2 r j))) = x3 (ix1 j) :=
    congrArg x3 (funext fun a => by match a with | ⟨0, _⟩ => rfl)
  have e4 : ∀ k : Fin 256, x0 (lidx_main_v29 (ix2 r j) k) = x0 (ix2 r k) := fun k =>
    congrArg x0 (funext fun a => by match a with | ⟨0, _⟩ => rfl | ⟨1, _⟩ => rfl)
  have e5 : ∀ k : Fin 256, val_main_v28 (F := Ideal) x4 (ridx_main_v29 (ix2 r j) k) = x4 (ix2 j k) := fun k =>
    (val_main_v28_apply x4 _).trans (congrArg x4 (funext fun a => by match a with | ⟨0, _⟩ => rfl | ⟨1, _⟩ => rfl))
  simp only [e1, e2, e3, e4, e5]
  rfl

/-- The first dense layer's output at `(r, j)`, through `relu`. -/
theorem h1_apply (r : Fin 100000) (j : Fin 128) :
    val_main_v38 (F := Ideal) x0 x1 x2 x3 x4 x5 x6 (ix2 r j)
      = relu (dense (fun k => val_main_v32 (F := Ideal) x0 x1 x2 x3 x4 (ix2 r k)) (fun j k => x5 (ix2 j k)) (fun j => x6 (ix1 j)) j) := by
  rw [val_main_v38_apply, val_main_v37_apply, val_main_v34_apply, val_main_v36_apply, val_main_v35_apply,
    val_main_call1_v0_apply, val_main_call1_cst_apply]
  generalize val_main_v32 (F := Ideal) x0 x1 x2 x3 x4 = h
  have e1 : ∀ k : Fin 256, h (lidx_main_v34 (ix2 r j) k) = h (ix2 r k) := fun k =>
    congrArg h (funext fun a => by match a with | ⟨0, _⟩ => rfl | ⟨1, _⟩ => rfl)
  have e2 : ∀ k : Fin 256, val_main_v33 (F := Ideal) x5 (ridx_main_v34 (ix2 r j) k) = x5 (ix2 j k) := fun k =>
    (val_main_v33_apply x5 _).trans (congrArg x5 (funext fun a => by match a with | ⟨0, _⟩ => rfl | ⟨1, _⟩ => rfl))
  have e3 : x6 (idx_main_v35 (idx_main_v36 (ix2 r j))) = x6 (ix1 j) :=
    congrArg x6 (funext fun a => by match a with | ⟨0, _⟩ => rfl)
  simp only [e1, e2, e3]
  rfl

/-- The second dense layer's output at `(r, j)`, through `relu`. -/
theorem h2_apply (r : Fin 100000) (j : Fin 32) :
    val_main_v44 (F := Ideal) x0 x1 x2 x3 x4 x5 x6 x7 x8 (ix2 r j)
      = relu (dense (fun k => val_main_v38 (F := Ideal) x0 x1 x2 x3 x4 x5 x6 (ix2 r k)) (fun j k => x7 (ix2 j k)) (fun j => x8 (ix1 j)) j) := by
  rw [val_main_v44_apply, val_main_v43_apply, val_main_v40_apply, val_main_v42_apply, val_main_v41_apply,
    val_main_call2_v0_apply, val_main_call2_cst_apply]
  generalize val_main_v38 (F := Ideal) x0 x1 x2 x3 x4 x5 x6 = h
  have e1 : ∀ k : Fin 128, h (lidx_main_v40 (ix2 r j) k) = h (ix2 r k) := fun k =>
    congrArg h (funext fun a => by match a with | ⟨0, _⟩ => rfl | ⟨1, _⟩ => rfl)
  have e2 : ∀ k : Fin 128, val_main_v39 (F := Ideal) x7 (ridx_main_v40 (ix2 r j) k) = x7 (ix2 j k) := fun k =>
    (val_main_v39_apply x7 _).trans (congrArg x7 (funext fun a => by match a with | ⟨0, _⟩ => rfl | ⟨1, _⟩ => rfl))
  have e3 : x8 (idx_main_v41 (idx_main_v42 (ix2 r j))) = x8 (ix1 j) :=
    congrArg x8 (funext fun a => by match a with | ⟨0, _⟩ => rfl)
  simp only [e1, e2, e3]
  rfl

/-- The last dense layer's output at `(r, j)`. -/
theorem out_apply (r : Fin 100000) (j : Fin 1) :
    val_main_v49 (F := Ideal) x0 x1 x2 x3 x4 x5 x6 x7 x8 x9 x10 (ix2 r j)
      = dense (fun k => val_main_v44 (F := Ideal) x0 x1 x2 x3 x4 x5 x6 x7 x8 (ix2 r k)) (fun j k => x9 (ix2 j k)) (fun j => x10 (ix1 j)) j := by
  rw [val_main_v49_apply, val_main_v46_apply, val_main_v48_apply, val_main_v47_apply]
  generalize val_main_v44 (F := Ideal) x0 x1 x2 x3 x4 x5 x6 x7 x8 = h
  have e1 : ∀ k : Fin 32, h (lidx_main_v46 (ix2 r j) k) = h (ix2 r k) := fun k =>
    congrArg h (funext fun a => by match a with | ⟨0, _⟩ => rfl | ⟨1, _⟩ => rfl)
  have e2 : ∀ k : Fin 32, val_main_v45 (F := Ideal) x9 (ridx_main_v46 (ix2 r j) k) = x9 (ix2 j k) := fun k =>
    (val_main_v45_apply x9 _).trans (congrArg x9 (funext fun a => by match a with | ⟨0, _⟩ => rfl | ⟨1, _⟩ => rfl))
  have e3 : x10 (idx_main_v47 (idx_main_v48 (ix2 r j))) = x10 (ix1 j) :=
    congrArg x10 (funext fun a => by
      match a with
      | ⟨0, _⟩ => exact Fin.ext (by have hj := j.isLt; show 0 = j.val; omega))
  simp only [e1, e2, e3]
  rfl

/-- The reference's result column is `G` of its own mean stage and the arguments. -/
theorem result_eq :
    val_main_v49 (F := Ideal) x0 x1 x2 x3 x4 x5 x6 x7 x8 x9 x10
      = G (val_main_v22 (F := Ideal) x0 x1) x0 x2 x3 x4 x5 x6 x7 x8 x9 x10 := by
  funext i
  obtain ⟨r, q, rfl⟩ : ∃ (r : Fin 100000) (q : Fin 1), i = ix2 r q := ⟨i 0, i 1, eq_ix2 i⟩
  obtain rfl : q = 0 := Fin.ext (by have hq := q.isLt; show q.val = 0; omega)
  rw [out_apply]
  have e44 : (fun k => val_main_v44 (F := Ideal) x0 x1 x2 x3 x4 x5 x6 x7 x8 (ix2 r k))
      = fun j => relu (dense (fun k => val_main_v38 (F := Ideal) x0 x1 x2 x3 x4 x5 x6 (ix2 r k)) (fun j k => x7 (ix2 j k)) (fun j => x8 (ix1 j)) j) :=
    funext fun j => h2_apply x0 x1 x2 x3 x4 x5 x6 x7 x8 r j
  have e38 : (fun k => val_main_v38 (F := Ideal) x0 x1 x2 x3 x4 x5 x6 (ix2 r k))
      = fun j => relu (dense (fun k => val_main_v32 (F := Ideal) x0 x1 x2 x3 x4 (ix2 r k)) (fun j k => x5 (ix2 j k)) (fun j => x6 (ix1 j)) j) :=
    funext fun j => h1_apply x0 x1 x2 x3 x4 x5 x6 r j
  have e32 : (fun k => val_main_v32 (F := Ideal) x0 x1 x2 x3 x4 (ix2 r k))
      = mix (fun k => val_main_v22 (F := Ideal) x0 x1 (ix2 r k)) (fun k => x0 (ix2 r k)) (fun j k => x2 (ix2 j k))
          (fun j => x3 (ix1 j)) (fun j k => x4 (ix2 j k)) :=
    funext fun j => mix_apply x0 x1 x2 x3 x4 r j
  rw [e44, e38, e32]
  generalize val_main_v22 (F := Ideal) x0 x1 = mean
  rfl

end Cert.ReferenceIdeal.RefValue

end
-- ==== Proof.lean ====
/-
  Kernel and reference compute the same column of numbers, one per graph node.

  Both programs first form, by the same host operations, the mean of each node's in-neighbour feature rows (a gather
  along the edge list, two scatter-adds, a division by the larger of the in-degree and one). The kernel then runs 50
  grid points of 2000 nodes each; on a block it computes `relu ((mean · Wlᵀ + bl) + x · Wrᵀ) + x` and three dense
  layers 256 → 128 → 32 → 1, with its matrix products into a zero accumulator and its narrowing format changes, which
  are the identity on extended reals. The reference does the same with whole-array products. Every entry of every
  stage depends on one node's rows only, and the additions are associated the same way in both programs, so both
  result columns are `NodeSpec.G` of the same mean array and the same arguments: no law of the extended reals beyond
  reading a matrix product as a sum is used, and the finiteness of the inputs is not needed.

  The three runs come from the generated frames and the generated run of the reference; the kernel's value is
  `KernelIdeal.Whole.run`, the reference's `ReferenceIdeal.RefValue.result_eq`.
-/
import proofs.«108088_j23192823398472_1_alg».proof.Defs
import proofs.«108088_j23192823398472_1_alg».proof.Proof.Gen.Kernel
import proofs.«108088_j23192823398472_1_alg».proof.Proof.Gen.Kernel.Skeleton
import proofs.«108088_j23192823398472_1_alg».proof.Proof.Gen.Kernel.Launch
import proofs.«108088_j23192823398472_1_alg».proof.Proof.Gen.Kernel.Points
import proofs.«108088_j23192823398472_1_alg».proof.Proof.Gen.Kernel.Frame
import proofs.«108088_j23192823398472_1_alg».proof.Proof.Gen.KernelIdeal
import proofs.«108088_j23192823398472_1_alg».proof.Proof.Gen.KernelIdeal.Skeleton
import proofs.«108088_j23192823398472_1_alg».proof.Proof.Gen.KernelIdeal.Launch
import proofs.«108088_j23192823398472_1_alg».proof.Proof.Gen.KernelIdeal.Points
import proofs.«108088_j23192823398472_1_alg».proof.Proof.Gen.KernelIdeal.Frame
import proofs.«108088_j23192823398472_1_alg».proof.Proof.Gen.ReferenceIdeal
import proofs.«108088_j23192823398472_1_alg».proof.Proof.Gen.Pre_finite_inputs
import proofs.«108088_j23192823398472_1_alg».proof.Proof.Gen.KernelIdeal.Value
import proofs.«108088_j23192823398472_1_alg».proof.Proof.Gen.ReferenceIdeal.Run
import proofs.«108088_j23192823398472_1_alg».proof.Proof.Gen.ReferenceIdeal.Read
import proofs.«108088_j23192823398472_1_alg».proof.Proof.KernelValue
import proofs.«108088_j23192823398472_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the column `NodeSpec.G` of the mean array and
    the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v49_eq, Cert.ReferenceIdeal.RefValue.result_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
